-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S64 : Shape := ⟨1, ![64]⟩
abbrev S4096 : Shape := ⟨1, ![4096]⟩
abbrev S_ : Shape := ⟨0, ![]⟩
abbrev S4096x1 : Shape := ⟨2, ![4096, 1]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S64 : S_.BroadcastsInDim S64 (![] : Fin 0 → Fin S64.rank)
  reducesTo_S64_S_d0 : S64.ReducesTo [0] S_
  bcast_S_S4096 : S_.BroadcastsInDim S4096 (![] : Fin 0 → Fin S4096.rank)
  reducesTo_S4096_S_d0 : S4096.ReducesTo [0] S_
  bcast_S4096_S4096x1_0 : S4096.BroadcastsInDim S4096x1 (![0] : Fin 1 → Fin S4096x1.rank)
  gather_S4096_S4096x1_S4096_n_0_n_n_0_1_1_wf : GatherDims.WF S4096 S4096x1 S4096 [] [0] [] [0] [] 1 ![1]

variable [Facts]

def gather_S4096_S4096x1_S4096_n_0_n_n_0_1_1 : GatherDims S4096 S4096x1 S4096 where
  offsetDims := []
  collapsedSliceDims := [0]
  operandBatchingDims := []
  startIndicesBatchingDims := []
  startIndexMap := [0]
  indexVectorDim := 1
  sliceSizes := ![1]
  wf := gather_S4096_S4096x1_S4096_n_0_n_n_0_1_1_wf
def fn_part1 {F : FTy → Type} [FloatOps F] (main_arg2 : IVec S4096 32) (main_arg3 : IVec S4096 32) (main_v15 : IVec S_ 1) (main_c_5 : IVec S_ 32) : IVec S_ 1 :=
  let main_v16 : IVec S4096 32 := broadcastInDim S4096 ![] bcast_S_S4096 main_c_5
  let main_v17 : IVec S4096 1 := cmpi .slt main_arg3 main_v16
  let main_c_6 : IVec S_ 32 := constantI S_ 32 4096#32
  let main_v18 : IVec S4096 32 := broadcastInDim S4096 ![] bcast_S_S4096 main_c_6
  let main_v19 : IVec S4096 32 := addi main_arg3 main_v18
  let main_v20 : IVec S4096 32 := select main_v17 main_v19 main_arg3
  let main_v21 : IVec S4096x1 32 := broadcastInDim S4096x1 ![0] bcast_S4096_S4096x1_0 main_v20
  let main_v22 : IVec S4096 32 := (fun x i => Host.gather gather_S4096_S4096x1_S4096_n_0_n_n_0_1_1 x i) main_arg2 main_v21
  let main_v23 : IVec S4096 32 := iotaInDim S4096 32 0
  let main_v24 : IVec S4096 1 := cmpi .eq main_v22 main_v23
  let main_c_7 : IVec S_ 1 := constantI S_ 1 1#1
  let main_v25 : IVec S_ 1 := (fun x v => Host.reduce IntOp.andi x v reducesTo_S4096_S_d0 h_S_) main_v24 main_c_7
  let main_v26 : IVec S_ 1 := andi main_v15 main_v25
  main_v26

def fn {F : FTy → Type} [FloatOps F] (main_arg0 : FVec F S4x4096x4096 .f32) (main_arg1 : FVec F S64 .f32) (main_arg2 : IVec S4096 32) (main_arg3 : IVec S4096 32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg3 main_v9
  let main_c_3 : IVec S_ 32 := constantI S_ 32 4096#32
  let main_v11 : IVec S4096 32 := broadcastInDim S4096 ![] bcast_S_S4096 main_c_3
  let main_v12 : IVec S4096 1 := cmpi .slt main_arg3 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  let main_c_5 : IVec S_ 32 := constantI S_ 32 0#32
  fn_part1 (F := F) main_arg2 main_arg3 main_v15 main_c_5
-- ==== Kernel.lean ====
abbrev S4x4096x4096 : Shape := ⟨3, ![4, 4096, 4096]⟩
abbrev S64 : Shape := ⟨1, ![64]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S1x4096 : Shape := ⟨2, ![1, 4096]⟩
abbrev S16384x4096 : Shape := ⟨2, ![16384, 4096]⟩
abbrev S256x4096 : Shape := ⟨2, ![256, 4096]⟩

abbrev nBuf : Space → Nat
  | .hbm => 68
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S64, .f32⟩
  | .hbm, ⟨2, _⟩ => ⟨S4096, .i32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S4096, .i32⟩
  | .hbm, ⟨13, _⟩ => ⟨S4096, .i32⟩
  | .hbm, ⟨14, _⟩ => ⟨S4096, .i1⟩
  | .hbm, ⟨15, _⟩ => ⟨S_, .i1⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S4096x1, .i32⟩
  | .hbm, ⟨43, _⟩ => ⟨S1, .i32⟩
  | .hbm, ⟨44, _⟩ => ⟨S_, .i32⟩
  | .hbm, ⟨45, _⟩ => ⟨S4096x1, .i32⟩
  | .hbm, ⟨46, _⟩ => ⟨S4096x1, .i1⟩
  | .hbm, ⟨47, _⟩ => ⟨S1x1, .i32⟩
  | .hbm, ⟨48, _⟩ => ⟨S4096x1, .i32⟩
  | .hbm, ⟨49, _⟩ => ⟨S4096x1, .i1⟩
  | .hbm, ⟨50, _⟩ => ⟨S4096x1, .i1⟩
  | .hbm, ⟨51, _⟩ => ⟨S_, .i1⟩
  | .hbm, ⟨52, _⟩ => ⟨S4096, .i1⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S1x4096, .f32⟩
  | .hbm, ⟨64, _⟩ => ⟨S1x4096, .f32⟩
  | .hbm, ⟨65, _⟩ => ⟨S16384x4096, .f32⟩
  | .hbm, ⟨66, _⟩ => ⟨S16384x4096, .f32⟩
  | .hbm, ⟨67, _⟩ => ⟨S4x4096x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_c_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v10 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_cst : Ref sig .tc := ⟨.hbm, 54, rfl⟩
abbrev main_call1_v14 : Ref sig .tc := ⟨.hbm, 55, rfl⟩
abbrev main_v11 : Ref sig .tc := ⟨.hbm, 56, rfl⟩
abbrev main_cst : Ref sig .tc := ⟨.hbm, 57, rfl⟩
abbrev main_call2_v0 : Ref sig .tc := ⟨.hbm, 58, rfl⟩
abbrev main_v12 : Ref sig .tc := ⟨.hbm, 59, rfl⟩
abbrev main_cst_3 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  reducesTo_S4096_S_d0 : S4096.ReducesTo [0] S_
  h_S_ : 0 < S_.numel
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  shapeCasts_S4096_S1x4096 : S4096.ShapeCasts S1x4096
  shapeCasts_S4x4096x4096_S16384x4096 : S4x4096x4096.ShapeCasts S16384x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S16384x4096_S4x4096x4096 : S16384x4096.ShapeCasts S4x4096x4096
  gather_S4096_S4096x1_S4096_n_0_n_n_0_1_1_wf : GatherDims.WF S4096 S4096x1 S4096 [] [0] [] [0] [] 1 ![1]
  gather_S64_S4096x1_S4096_n_0_n_n_0_1_1_wf : GatherDims.WF S64 S4096x1 S4096 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .f32 = 32 ∨ (Rect.block (s := S16384x4096) S256x4096.size (cc0_transform_3 i) (hinb0_3 i)).WholeWords (EltTy.packing .f32)

variable [Facts₀]

def gather_S4096_S4096x1_S4096_n_0_n_n_0_1_1 : GatherDims S4096 S4096x1 S4096 where
  offsetDims := []
  collapsedSliceDims := [0]
  operandBatchingDims := []
  startIndicesBatchingDims := []
  startIndexMap := [0]
  indexVectorDim := 1
  sliceSizes := ![1]
  wf := gather_S4096_S4096x1_S4096_n_0_n_n_0_1_1_wf
def gather_S64_S4096x1_S4096_n_0_n_n_0_1_1 : GatherDims S64 S4096x1 S4096 where
  offsetDims := []
  collapsedSliceDims := [0]
  operandBatchingDims := []
  startIndicesBatchingDims := []
  startIndexMap := [0]
  indexVectorDim := 1
  sliceSizes := ![1]
  wf := gather_S64_S4096x1_S4096_n_0_n_n_0_1_1_wf

abbrev win0_0 : Pipeline.Window sig grid0 :=
  Pipeline.Window.ofSpec (Memref.whole main_v17) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S64 : Shape := ⟨1, ![64]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S64x64 : Shape := ⟨2, ![64, 64]⟩
abbrev S1x1x4096 : Shape := ⟨3, ![1, 1, 4096]⟩

abbrev nBuf : Space → Nat
  | .hbm => 67
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S64, .f32⟩
  | .hbm, ⟨2, _⟩ => ⟨S4096, .i32⟩
  | .hbm, ⟨3, _⟩ => ⟨S4096, .i32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S1, .i32⟩
  | .hbm, ⟨13, _⟩ => ⟨S_, .i32⟩
  | .hbm, ⟨14, _⟩ => ⟨S4096x1, .i32⟩
  | .hbm, ⟨15, _⟩ => ⟨S4096x1, .i1⟩
  | .hbm, ⟨16, _⟩ => ⟨S1x1, .i32⟩
  | .hbm, ⟨17, _⟩ => ⟨S4096x1, .i32⟩
  | .hbm, ⟨18, _⟩ => ⟨S4096x1, .i1⟩
  | .hbm, ⟨19, _⟩ => ⟨S4096x1, .i1⟩
  | .hbm, ⟨20, _⟩ => ⟨S_, .i1⟩
  | .hbm, ⟨21, _⟩ => ⟨S4096, .i1⟩
  | .hbm, ⟨22, _⟩ => ⟨S4x4096x4096, .f32⟩
  | .hbm, ⟨23, _⟩ => ⟨S4x4096x4096, .i1⟩
  | .hbm, ⟨24, _⟩ => ⟨S_, .f32⟩
  | .hbm, ⟨25, _⟩ => ⟨S4x4096x4096, .f32⟩
  | .hbm, ⟨26, _⟩ => ⟨S4x4096x4096, .f32⟩
  | .hbm, ⟨27, _⟩ => ⟨S64x64, .f32⟩
  | .hbm, ⟨28, _⟩ => ⟨S4096, .f32⟩
  | .hbm, ⟨29, _⟩ => ⟨S1x1x4096, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S_, .i32⟩
  | .hbm, ⟨34, _⟩ => ⟨S_, .i32⟩
  | .hbm, ⟨35, _⟩ => ⟨S_, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096x4096, .f32⟩
  | .hbm, ⟨40, _⟩ => ⟨S4x4096x4096, .f32⟩
  | .hbm, ⟨41, _⟩ => ⟨S1x1x4096, .f32⟩
  | .hbm, ⟨42, _⟩ => ⟨S4x4096x4096, .f32⟩
  | .hbm, ⟨43, _⟩ => ⟨S4x4096x4096, .f32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S4096x1, .i32⟩
  | .hbm, ⟨52, _⟩ => ⟨S1, .i32⟩
  | .hbm, ⟨53, _⟩ => ⟨S_, .i32⟩
  | .hbm, ⟨54, _⟩ => ⟨S4096x1, .i32⟩
  | .hbm, ⟨55, _⟩ => ⟨S4096x1, .i1⟩
  | .hbm, ⟨56, _⟩ => ⟨S1x1, .i32⟩
  | .hbm, ⟨57, _⟩ => ⟨S4096x1, .i32⟩
  | .hbm, ⟨58, _⟩ => ⟨S4096x1, .i1⟩
  | .hbm, ⟨59, _⟩ => ⟨S4096x1, .i1⟩
  | .hbm, ⟨60, _⟩ => ⟨S_, .i1⟩
  | .hbm, ⟨61, _⟩ => ⟨S4096, .i1⟩
  | .hbm, ⟨62, _⟩ => ⟨S4x4096x4096, .f32⟩
  | .hbm, ⟨63, _⟩ => ⟨S4x4096x4096, .i1⟩
  | .hbm, ⟨64, _⟩ => ⟨S_, .f32⟩
  | .hbm, ⟨65, _⟩ => ⟨S4x4096x4096, .f32⟩
  | .hbm, ⟨66, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c : Ref sig .tc := ⟨.hbm, 33, rfl⟩
abbrev main_c_0 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_call3_c : Ref sig .tc := ⟨.hbm, 44, rfl⟩
abbrev main_call3_v0 : Ref sig .tc := ⟨.hbm, 45, rfl⟩
abbrev main_call3_v1 : Ref sig .tc := ⟨.hbm, 46, rfl⟩
abbrev main_call3_c_0 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_call3_v5 : Ref sig .tc := ⟨.hbm, 51, rfl⟩
abbrev main_call3_c_1 : Ref sig .tc := ⟨.hbm, 52, rfl⟩
abbrev main_call3_c_2 : Ref sig .tc := ⟨.hbm, 53, rfl⟩
abbrev main_call3_v6 : Ref sig .tc := ⟨.hbm, 54, rfl⟩
abbrev main_call3_v7 : Ref sig .tc := ⟨.hbm, 55, rfl⟩
abbrev main_call3_v8 : Ref sig .tc := ⟨.hbm, 56, rfl⟩
abbrev main_call3_v9 : Ref sig .tc := ⟨.hbm, 57, rfl⟩
abbrev main_call3_v10 : Ref sig .tc := ⟨.hbm, 58, rfl⟩
abbrev main_call3_v11 : Ref sig .tc := ⟨.hbm, 59, rfl⟩
abbrev main_call3_c_3 : Ref sig .tc := ⟨.hbm, 60, rfl⟩
abbrev main_call3_v12 : Ref sig .tc := ⟨.hbm, 61, rfl⟩
abbrev main_call3_v13 : Ref sig .tc := ⟨.hbm, 62, rfl⟩
abbrev main_call3_v14 : Ref sig .tc := ⟨.hbm, 63, rfl⟩
abbrev main_call3_cst : Ref sig .tc := ⟨.hbm, 64, rfl⟩
abbrev main_call3_v15 : Ref sig .tc := ⟨.hbm, 65, rfl⟩
abbrev main_v11 : Ref sig .tc := ⟨.hbm, 66, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4x4096x4096_2 : S4096.BroadcastsInDim S4x4096x4096 (![2] : Fin 1 → Fin S4x4096x4096.rank)
  bcast_S_S4x4096x4096 : S_.BroadcastsInDim S4x4096x4096 (![] : Fin 0 → Fin S4x4096x4096.rank)
  bcast_S64_S64x64_0 : S64.BroadcastsInDim S64x64 (![0] : Fin 1 → Fin S64x64.rank)
  shapeCasts_S64x64_S4096 : S64x64.ShapeCasts S4096
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  gather_S4x4096x4096_S4096x1_S4x4096x4096_01_2_n_n_2_1_440961_wf : GatherDims.WF S4x4096x4096 S4096x1 S4x4096x4096 [0, 1] [2] [] [2] [] 1 ![4, 4096, 1]

variable [Facts₀]

def gather_S4x4096x4096_S4096x1_S4x4096x4096_01_2_n_n_2_1_440961 : GatherDims S4x4096x4096 S4096x1 S4x4096x4096 where
  offsetDims := [0, 1]
  collapsedSliceDims := [2]
  operandBatchingDims := []
  startIndicesBatchingDims := []
  startIndexMap := [2]
  indexVectorDim := 1
  sliceSizes := ![4, 4096, 1]
  wf := gather_S4x4096x4096_S4096x1_S4x4096x4096_01_2_n_n_2_1_440961_wf

class Facts : Prop extends Facts₀ where

variable [Facts]
-- ==== Proof.RefTerm.lean ====
/-
  The reference's result as one term of its four argument arrays: the operations of its program composed, with the two
  filling takes along the channel axis (wrap a negative index, gather, keep the gathered entry where the wrapped index
  lies in [0, 4095] and a fill elsewhere), the per-channel scale (each of the 64 group scales repeated 64 times), and the
  clip to [-127, 127], each named.
-/
import proofs.«400067_j68539088109686_3_alg».proof.ReferenceIdeal

noncomputable section

namespace Cert.ReferenceIdeal.Hand

open Idealize.ShloMosaic Cert.ReferenceIdeal
open Cert.ReferenceIdeal.Facts₀ Cert.ReferenceIdeal.Facts

variable {F : FTy → Type} [FloatOps F] [Facts]

/-- The take's start indices: a negative index wrapped by 4096, as a column. -/
def startCol (idx : IVec S4096 32) : IVec S4096x1 32 :=
  broadcastInDim S4096x1 ![0] bcast_S4096_S4096x1_0
    (select (cmpi .slt idx (broadcastInDim S4096 ![] bcast_S_S4096 (constantI S_ 32 0#32)))
      (addi idx (broadcastInDim S4096 ![] bcast_S_S4096 (constantI S_ 32 4096#32))) idx)

/-- Per position, whether the wrapped index lies in [0, 4095]. -/
def inRange (col : IVec S4096x1 32) : IVec S4096 1 :=
  Host.reduce IntOp.andi
    (andi (cmpi .sge col (broadcastInDim S4096x1 ![] bcast_S_S4096x1 (constantI S_ 32 0#32)))
      (cmpi .sle col (broadcastInDim S4096x1 ![0, 1] bcast_S1x1_S4096x1_0_1
        (broadcastInDim S1x1 ![1] bcast_S1_S1x1_1 (constantI S1 32 4095#32)))))
    (constantI S_ 1 1#1) reducesTo_S4096x1_S4096_d1 h_S_

/-- The filling take along the last axis: entry (b, s, j) is a (b, s, idx j) where idx j is in range, a fill elsewhere. -/
def takeLast (a : FVec F S4x4096x4096 .f32) (idx : IVec S4096 32) : FVec F S4x4096x4096 .f32 :=
  select (broadcastInDim S4x4096x4096 ![2] bcast_S4096_S4x4096x4096_2 (inRange (startCol idx)))
    (Host.gather gather_S4x4096x4096_S4096x1_S4x4096x4096_01_2_n_n_2_1_440961 a (startCol idx))
    (broadcastInDim S4x4096x4096 ![] bcast_S_S4x4096x4096 (constant S_ .f32 0x7FC00000#32))

/-- The per-channel scale: group scale g at the 64 channels 64 g, …, 64 g + 63. -/
def chanScale (gs : FVec F S64 .f32) : FVec F S4096 .f32 :=
  shapeCast S4096 (broadcastInDim S64x64 ![0] bcast_S64_S64x64_0 gs) shapeCasts_S64x64_S4096

/-- A per-channel vector laid along the last axis of the whole array. -/
def spread (v : FVec F S4096 .f32) : FVec F S4x4096x4096 .f32 :=
  broadcastInDim S4x4096x4096 ![0, 1, 2] bcast_S1x1x4096_S4x4096x4096_0_1_2
    (broadcastInDim S1x1x4096 ![2] bcast_S4096_S1x1x4096_2 v)

/-- The clip to [-127, 127], the bounds converted from integers. -/
def clip127 (y : FVec F S4x4096x4096 .f32) : FVec F S4x4096x4096 .f32 :=
  minimumf (broadcastInDim S4x4096x4096 ![] bcast_S_S4x4096x4096 (sitofp (F := F) .f32 (constantI S_ 32 127#32)))
    (maximumf (broadcastInDim S4x4096x4096 ![] bcast_S_S4x4096x4096 (sitofp (F := F) .f32 (constantI S_ 32 4294967169#32))) y)

/-- The reference's result: permute the channels, quantize by the per-channel scale, dequantize, permute back. -/
def refOut (x : FVec F S4x4096x4096 .f32) (gs : FVec F S64 .f32) (perm ip : IVec S4096 32) : FVec F S4x4096x4096 .f32 :=
  takeLast (mulf (clip127 (Host.roundeven (Host.divf (takeLast x perm) (spread (chanScale gs))))) (spread (chanScale gs))) ip

end Cert.ReferenceIdeal.Hand

end
-- ==== Proof.RefRun.lean ====
/-
  The reference program's run: its @main as one list of host operations (each outlined function's operations at its call),
  and every weakly fair execution ending with the result buffer at the composed term of the argument arrays.
-/
import proofs.«400067_j68539088109686_3_alg».proof.Proof.RefTerm
import proofs.«400067_j68539088109686_3_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's sixty-three operations in order, the calls unfolded: the first take's twenty-three over `main_call0`'s buffers
    (the index compared with zero, shifted by 4096, the select of `_where` into `main_call0.call0`'s buffer, the index as a
    column, the two range comparisons and their conjunction reduced along the unit axis, the gather, the mask and the fill
    broadcast, the select), the scale's five (each group scale repeated along a new axis, flattened, laid along the last
    axis, the quotient), the rounding, the two integer bounds, the clip's six over `main_call2`'s, the scale laid out again and
    the product, and the second take's twenty-three over `main_call3`'s. -/
abbrev ops : List (HloOp τ sig (Elt F)) :=
  [ StableHlo.TRef.nullary main_call0.c (constantI S_ 32 0#32),
    StableHlo.TRef.unary main_call0.c main_call0.v0 (broadcastInDim S4096 ![] bcast_S_S4096),
    StableHlo.TRef.binary (.of main_arg2 : StableHlo.TRef sig ⟨S4096, .i32⟩) main_call0.v0 main_call0.v1 (cmpi .slt),
    StableHlo.TRef.nullary main_call0.c_0 (constantI S_ 32 4096#32),
    StableHlo.TRef.unary main_call0.c_0 main_call0.v2 (broadcastInDim S4096 ![] bcast_S_S4096),
    StableHlo.TRef.binary (.of main_arg2 : StableHlo.TRef sig ⟨S4096, .i32⟩) main_call0.v2 main_call0.v3 addi,
    StableHlo.TRef.ternary main_call0.v1 main_call0.v3 (.of main_arg2 : StableHlo.TRef sig ⟨S4096, .i32⟩) main_call0.call0.v0 select,
    StableHlo.TRef.unary main_call0.call0.v0 main_call0.v5 (broadcastInDim S4096x1 ![0] bcast_S4096_S4096x1_0),
    StableHlo.TRef.nullary main_call0.c_1 (constantI S1 32 4095#32),
    StableHlo.TRef.nullary main_call0.c_2 (constantI S_ 32 0#32),
    StableHlo.TRef.unary main_call0.c_2 main_call0.v6 (broadcastInDim S4096x1 ![] bcast_S_S4096x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S4096x1 ![0, 1] bcast_S1x1_S4096x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4096x1_S4096_d1 h_S_),
    StableHlo.TRef.binary (.of main_arg0 : StableHlo.TRef sig ⟨S4x4096x4096, .f32⟩) main_call0.v5 main_call0.v13 (fun x i => Host.gather gather_S4x4096x4096_S4096x1_S4x4096x4096_01_2_n_n_2_1_440961 x i),
    StableHlo.TRef.unary main_call0.v12 main_call0.v14 (broadcastInDim S4x4096x4096 ![2] bcast_S4096_S4x4096x4096_2),
    StableHlo.TRef.nullary main_call0.cst (constant S_ .f32 0x7FC00000#32),
    StableHlo.TRef.unary main_call0.cst main_call0.v15 (broadcastInDim S4x4096x4096 ![] bcast_S_S4x4096x4096),
    StableHlo.TRef.ternary main_call0.v14 main_call0.v13 main_call0.v15 main_call0.v16 select,
    StableHlo.unary main_arg1 main_v1 (broadcastInDim S64x64 ![0] bcast_S64_S64x64_0 : (⟨S64, .f32⟩ : BufTy).Contents (Elt F) → (⟨S64x64, .f32⟩ : BufTy).Contents (Elt F)),
    StableHlo.reshape main_v1 main_v2 rfl shapeCasts_S64x64_S4096,
    StableHlo.unary main_v2 main_v3 (broadcastInDim S1x1x4096 ![2] bcast_S4096_S1x1x4096_2 : (⟨S4096, .f32⟩ : BufTy).Contents (Elt F) → (⟨S1x1x4096, .f32⟩ : BufTy).Contents (Elt F)),
    StableHlo.unary main_v3 main_v4 (broadcastInDim S4x4096x4096 ![0, 1, 2] bcast_S1x1x4096_S4x4096x4096_0_1_2 : (⟨S1x1x4096, .f32⟩ : BufTy).Contents (Elt F) → (⟨S4x4096x4096, .f32⟩ : BufTy).Contents (Elt F)),
    StableHlo.binary main_v0 main_v4 main_v5 (Host.divf : (⟨S4x4096x4096, .f32⟩ : BufTy).Contents (Elt F) → (⟨S4x4096x4096, .f32⟩ : BufTy).Contents (Elt F) → (⟨S4x4096x4096, .f32⟩ : BufTy).Contents (Elt F)),
    StableHlo.TRef.unary (.of main_v5 : StableHlo.TRef sig ⟨S4x4096x4096, .f32⟩) main_call1.v0 Host.roundeven,
    StableHlo.nullary main_c (constantI S_ 32 4294967169#32),
    StableHlo.nullary main_c_0 (constantI S_ 32 127#32),
    StableHlo.TRef.unary (.of main_c : StableHlo.TRef sig ⟨S_, .i32⟩) main_call2.v0 (sitofp .f32),
    StableHlo.TRef.unary main_call2.v0 main_call2.v1 (broadcastInDim S4x4096x4096 ![] bcast_S_S4x4096x4096),
    StableHlo.TRef.binary main_call2.v1 (.of main_v6 : StableHlo.TRef sig ⟨S4x4096x4096, .f32⟩) main_call2.v2 maximumf,
    StableHlo.TRef.unary (.of main_c_0 : StableHlo.TRef sig ⟨S_, .i32⟩) main_call2.v3 (sitofp .f32),
    StableHlo.TRef.unary main_call2.v3 main_call2.v4 (broadcastInDim S4x4096x4096 ![] bcast_S_S4x4096x4096),
    StableHlo.TRef.binary main_call2.v4 main_call2.v2 main_call2.v5 minimumf,
    StableHlo.unary main_v2 main_v8 (broadcastInDim S1x1x4096 ![2] bcast_S4096_S1x1x4096_2 : (⟨S4096, .f32⟩ : BufTy).Contents (Elt F) → (⟨S1x1x4096, .f32⟩ : BufTy).Contents (Elt F)),
    StableHlo.unary main_v8 main_v9 (broadcastInDim S4x4096x4096 ![0, 1, 2] bcast_S1x1x4096_S4x4096x4096_0_1_2 : (⟨S1x1x4096, .f32⟩ : BufTy).Contents (Elt F) → (⟨S4x4096x4096, .f32⟩ : BufTy).Contents (Elt F)),
    StableHlo.binary main_v7 main_v9 main_v10 (mulf : (⟨S4x4096x4096, .f32⟩ : BufTy).Contents (Elt F) → (⟨S4x4096x4096, .f32⟩ : BufTy).Contents (Elt F) → (⟨S4x4096x4096, .f32⟩ : BufTy).Contents (Elt F)),
    StableHlo.TRef.nullary main_call3.c (constantI S_ 32 0#32),
    StableHlo.TRef.unary main_call3.c main_call3.v0 (broadcastInDim S4096 ![] bcast_S_S4096),
    StableHlo.TRef.binary (.of main_arg3 : StableHlo.TRef sig ⟨S4096, .i32⟩) main_call3.v0 main_call3.v1 (cmpi .slt),
    StableHlo.TRef.nullary main_call3.c_0 (constantI S_ 32 4096#32),
    StableHlo.TRef.unary main_call3.c_0 main_call3.v2 (broadcastInDim S4096 ![] bcast_S_S4096),
    StableHlo.TRef.binary (.of main_arg3 : StableHlo.TRef sig ⟨S4096, .i32⟩) main_call3.v2 main_call3.v3 addi,
    StableHlo.TRef.ternary main_call3.v1 main_call3.v3 (.of main_arg3 : StableHlo.TRef sig ⟨S4096, .i32⟩) main_call3.call0.v0 select,
    StableHlo.TRef.unary main_call3.call0.v0 main_call3.v5 (broadcastInDim S4096x1 ![0] bcast_S4096_S4096x1_0),
    StableHlo.TRef.nullary main_call3.c_1 (constantI S1 32 4095#32),
    StableHlo.TRef.nullary main_call3.c_2 (constantI S_ 32 0#32),
    StableHlo.TRef.unary main_call3.c_2 main_call3.v6 (broadcastInDim S4096x1 ![] bcast_S_S4096x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S4096x1 ![0, 1] bcast_S1x1_S4096x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S4096x1_S4096_d1 h_S_),
    StableHlo.TRef.binary (.of main_v10 : StableHlo.TRef sig ⟨S4x4096x4096, .f32⟩) main_call3.v5 main_call3.v13 (fun x i => Host.gather gather_S4x4096x4096_S4096x1_S4x4096x4096_01_2_n_n_2_1_440961 x i),
    StableHlo.TRef.unary main_call3.v12 main_call3.v14 (broadcastInDim S4x4096x4096 ![2] bcast_S4096_S4x4096x4096_2),
    StableHlo.TRef.nullary main_call3.cst (constant S_ .f32 0x7FC00000#32),
    StableHlo.TRef.unary main_call3.cst main_call3.v15 (broadcastInDim S4x4096x4096 ![] bcast_S_S4x4096x4096),
    StableHlo.TRef.ternary main_call3.v14 main_call3.v13 main_call3.v15 main_call3.v16 select ]

/-- @main is that straight line: the functions' definitions unfolded at their calls and the records at their fields, both
    sides are the same chain of host steps once sequencing is reassociated, which is definitional unfolding (checked by the
    kernel on the reflexivity proof). -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Each operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub .., ternary_bufs_sub .., unary_bufs_sub ..,
    reshape_bufs_sub .., unary_bufs_sub .., unary_bufs_sub .., binary_bufs_sub .., unary_bufs_sub .., nullary_bufs_sub .., nullary_bufs_sub .., unary_bufs_sub ..,
    unary_bufs_sub .., binary_bufs_sub .., unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub .., ternary_bufs_sub ..⟩

attribute [local irreducible] Host.reduce Host.gather in
set_option maxRecDepth 8192 in
set_option maxHeartbeats 1600000 in
/-- The fold of the operations at the result buffer is the composed term: each operation's result read at its own buffer is
    its function of its operands' contents, at any other buffer what was there; the typed references' casts are the
    identity at these literal references, so the two terms agree by computation (the reduction and the gather kept folded:
    the equation never looks inside them). -/
theorem out_eq (V : Valuation τ sig (Elt F)) :
    after ops V (main_v11 : DevRef τ sig)
      = refOut (V (main_arg0 : DevRef τ sig)) (V (main_arg1 : DevRef τ sig)) (V (main_arg2 : DevRef τ sig))
          (V (main_arg3 : DevRef τ sig)) := by
  after_results_simp
  unfold refOut takeLast startCol inRange chanScale spread clip127
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11)
        = refOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v11).trans (out_eq _),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.Hand

end
-- ==== Proof.KerTerm.lean ====
/-
  The kernel program's host side as terms of its argument arrays: the validity bit (perm at the wrapped inv_perm is the
  identity), the group index inv_perm // 64 as the floor-division idiom prints it, the filling take of the group scales
  at it, the per-channel scale (the taken scale where the bit is set, a fill otherwise) and its reciprocal; and the
  program's result, entry by entry, from them.
-/
import proofs.«400067_j68539088109686_3_alg».proof.KernelIdeal
import Idealize.ShloMosaic.Lib.ValueIdx
import Idealize.ShloMosaic.PureOps.Ideal

noncomputable section

namespace Cert.KernelIdeal.Hand

open Idealize.ShloMosaic Cert.KernelIdeal Idealize.ShloMosaic.ValueIdx
open Cert.KernelIdeal.Facts₀ Cert.KernelIdeal.Facts

variable {F : FTy → Type} [FloatOps F] [Facts]

/-- inv_perm with a negative index wrapped by 4096, as a column of start indices. -/
def wrapCol (ip : IVec S4096 32) : IVec S4096x1 32 :=
  broadcastInDim S4096x1 ![0] bcast_S4096_S4096x1_0
    (select (cmpi .slt ip (broadcastInDim S4096 ![] bcast_S_S4096 (constantI S_ 32 0#32)))
      (addi ip (broadcastInDim S4096 ![] bcast_S_S4096 (constantI S_ 32 4096#32))) ip)

/-- The validity bit: perm gathered at inv_perm equals the position, at every channel. -/
def valid (perm ip : IVec S4096 32) : IVec S_ 1 :=
  Host.reduce IntOp.andi
    (cmpi .eq (Host.gather gather_S4096_S4096x1_S4096_n_0_n_n_0_1_1 perm (wrapCol ip)) (iotaInDim S4096 32 0))
    (constantI S_ 1 1#1) reducesTo_S4096_S_d0 h_S_

/-- inv_perm // 64: the truncating quotient, less one where the signs differ and the remainder is not zero. -/
def floorDiv64 (ip : IVec S4096 32) : IVec S4096 32 :=
  select
    (andi
      (cmpi .ne (signi ip) (broadcastInDim S4096 ![] bcast_S_S4096 (signi (constantI S_ 32 64#32))))
      (cmpi .ne (Host.remsi ip (broadcastInDim S4096 ![] bcast_S_S4096 (constantI S_ 32 64#32)))
        (broadcastInDim S4096 ![] bcast_S_S4096 (constantI S_ 32 0#32))))
    (subi (Host.divsi ip (broadcastInDim S4096 ![] bcast_S_S4096 (constantI S_ 32 64#32)))
      (broadcastInDim S4096 ![] bcast_S_S4096 (constantI S_ 32 1#32)))
    (Host.divsi ip (broadcastInDim S4096 ![] bcast_S_S4096 (constantI S_ 32 64#32)))

/-- The group indices wrapped by 64, as a column of start indices. -/
def groupCol (g : IVec S4096 32) : IVec S4096x1 32 :=
  broadcastInDim S4096x1 ![0] bcast_S4096_S4096x1_0
    (select (cmpi .slt g (broadcastInDim S4096 ![] bcast_S_S4096 (constantI S_ 32 0#32)))
      (addi g (broadcastInDim S4096 ![] bcast_S_S4096 (constantI S_ 32 64#32))) g)

/-- Per channel, whether the wrapped group index lies in [0, 63]. -/
def groupOk (col : IVec S4096x1 32) : IVec S4096 1 :=
  Host.reduce IntOp.andi
    (andi (cmpi .sge col (broadcastInDim S4096x1 ![] bcast_S_S4096x1 (constantI S_ 32 0#32)))
      (cmpi .sle col (broadcastInDim S4096x1 ![0, 1] bcast_S1x1_S4096x1_0_1
        (broadcastInDim S1x1 ![1] bcast_S1_S1x1_1 (constantI S1 32 63#32)))))
    (constantI S_ 1 1#1) reducesTo_S4096x1_S4096_d1 h_S_

/-- The filling take of the group scales at the group indices. -/
def takeGs (gs : FVec F S64 .f32) (g : IVec S4096 32) : FVec F S4096 .f32 :=
  select (groupOk (groupCol g)) (Host.gather gather_S64_S4096x1_S4096_n_0_n_n_0_1_1 gs (groupCol g))
    (broadcastInDim S4096 ![] bcast_S_S4096 (constant S_ .f32 0x7FC00000#32))

/-- The per-channel scale the kernel multiplies by: the taken group scale where the validity bit is set. -/
def scaleVec (gs : FVec F S64 .f32) (perm ip : IVec S4096 32) : FVec F S4096 .f32 :=
  select (broadcastInDim S4096 ![] bcast_S_S4096 (valid perm ip)) (takeGs gs (floorDiv64 ip))
    (broadcastInDim S4096 ![] bcast_S_S4096 (constant S_ .f32 0x7FC00000#32))

/-- Its reciprocal, computed once per channel. -/
def invScaleVec (gs : FVec F S64 .f32) (perm ip : IVec S4096 32) : FVec F S4096 .f32 :=
  Host.divf (broadcastInDim S4096 ![] bcast_S_S4096 (constant S_ .f32 0x3F800000#32)) (scaleVec gs perm ip)

/-- One entry of the kernel's result on the extended reals: the entry times the reciprocal scale, rounded to the nearest
    integer (ties to even), clipped to [-127, 127], times the scale. -/
def quantK (x inv sc : EReal) : EReal :=
  min (Ideal.ofBits .f32 0x42FE0000#32) (max (Ideal.ofBits .f32 0xC2FE0000#32) (Ideal.liftRound Ideal.roundHalfEven (x * inv))) * sc

/-- The kernel program's result on the extended reals: entry (b, s, k) from x (b, s, k) and channel k's scale and reciprocal. -/
def kerOut (x : FVec Ideal S4x4096x4096 .f32) (sc inv : FVec Ideal S4096 .f32) : FVec Ideal S4x4096x4096 .f32 :=
  fun i => quantK (x i) (inv (ix1 (i 2))) (sc (ix1 (i 2)))

end Cert.KernelIdeal.Hand

end
-- ==== Proof.KerHost.lean ====
/-
  What the kernel's region finds in its three input arrays: the host operations before it leave the per-channel scale and
  its reciprocal as [1, 4096] rows and x as a [16384, 4096] matrix.
-/
import proofs.«400067_j68539088109686_3_alg».proof.Proof.KerTerm
import proofs.«400067_j68539088109686_3_alg».proof.Proof.Gen.KernelIdeal.Frame
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The scale row (window 2's array): the fold of the host operations, read at the row's buffer, is the composed term of
    the operations that feed it — the validity bit's reduction, the floor division, the filling take and the final select —
    reshaped to one row; the typed references of the inlined functions carry identity casts, which are removed, and the
    composed term is then the transcription `scaleVec` unfolded, by computation. -/
theorem V_scale (c : Dev nD) :
    (V m c main_v15 : S1x4096.Idx → F .f32)
      = shapeCast S1x4096 (scaleVec (m ((c : Thread nD τ).loc main_arg1)) (m ((c : Thread nD τ).loc main_arg2)) (m ((c : Thread nD τ).loc main_arg3))) Facts₀.shapeCasts_S4096_S1x4096 := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  simp only [TRef.ofBuf, TRef.toBuf, cast_eq]
  unfold scaleVec takeGs groupOk groupCol floorDiv64 valid wrapCol
  rfl

/-- The reciprocal-scale row (window 1's array): the same fold, one division of the constant one by the scale further. -/
theorem V_inv (c : Dev nD) :
    (V m c main_v16 : S1x4096.Idx → F .f32)
      = shapeCast S1x4096 (invScaleVec (m ((c : Thread nD τ).loc main_arg1)) (m ((c : Thread nD τ).loc main_arg2)) (m ((c : Thread nD τ).loc main_arg3))) Facts₀.shapeCasts_S4096_S1x4096 := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  simp only [TRef.ofBuf, TRef.toBuf, cast_eq]
  unfold invScaleVec scaleVec takeGs groupOk groupCol floorDiv64 valid wrapCol
  rfl

/-- x as a matrix (window 0's array): the only operation that writes the buffer is the reshape of the first argument, which
    no earlier operation writes. -/
theorem V_x (c : Dev nD) :
    (V m c main_v17 : S16384x4096.Idx → F .f32)
      = shapeCast S16384x4096 (m ((c : Thread nD τ).loc main_arg0)) Facts₀.shapeCasts_S4x4096x4096_S16384x4096 := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  rfl

end Cert.KernelIdeal.Hand

end
-- ==== Proof.KerRun.lean ====
/-
  The kernel program's run on the extended reals: every weakly fair execution ends with the result buffer holding, at
  entry (b, s, k), x (b, s, k) quantized by channel k's scale and reciprocal scale.

  The body's payload at an entry of a block is the quantization of the block's entry by the two rows' entries of its
  column; block t of the result matrix is rows 256 t … 256 t + 255, so the 64 blocks written back tile the matrix and it
  ends as one function of the matrix of x and the two rows; the reshape after the region reads row 4096 b + s of it at
  entry (b, s, k), which is x (b, s, k) quantized.
-/
import proofs.«400067_j68539088109686_3_alg».proof.Proof.KerHost
import Idealize.ShloMosaic.Lib.Pipeline.Value
import Idealize.ShloMosaic.Lib.ValueLayout
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat)

/-! ## The body's payload at an entry -/

/-- A [1, 4096] row broadcast over 256 rows reads, at (p, q), the row at q. -/
theorem row_bcast (v : Vec Ideal S1x4096 .f32) (p : Fin 256) (q : Fin 4096) :
    broadcastTo S256x4096 v Facts₀.broadcasts_S1x4096_S256x4096 (ix2 p q) = v (ix2 (0 : Fin 1) q) :=
  broadcastTo_1b_ab_apply v _ p q

/-- The payload at (p, q): the block's entry times the reciprocal row's entry of column q, rounded to the nearest
    integer (ties to even), clipped to [-127, 127], times the scale row's entry of column q. -/
theorem pay_apply (x0 : Vec Ideal S256x4096 .f32) (x1 x2 : Vec Ideal S1x4096 .f32) (p : Fin 256) (q : Fin 4096) :
    k0_pay1 x0 x1 x2 (ix2 p q) = quantK (x0 (ix2 p q)) (x1 (ix2 (0 : Fin 1) q)) (x2 (ix2 (0 : Fin 1) q)) := by
  unfold k0_pay1 quantK
  simp only [shapeCast_self]
  show min (Ideal.ofBits .f32 0x42FE0000#32) (max (Ideal.ofBits .f32 0xC2FE0000#32)
      (Ideal.liftRound Ideal.roundHalfEven (x0 (ix2 p q) * broadcastTo S256x4096 x1 Facts₀.broadcasts_S1x4096_S256x4096 (ix2 p q))))
      * broadcastTo S256x4096 x2 Facts₀.broadcasts_S1x4096_S256x4096 (ix2 p q) = _
  rw [row_bcast, row_bcast]

/-! ## From the blocks to the matrix -/

theorem hz : (![0, 0] : Fin 2 → Nat) = fun _ => 0 := funext fun a => by fin_cases a <;> rfl

/-- The result as a matrix: at row r, column k, the matrix entry quantized by the two rows' entries of column k. -/
def quantMat (X : S16384x4096.Idx → EReal) (inv sc : S1x4096.Idx → EReal) : S16384x4096.Idx → EReal :=
  fun i => quantK (X i) (inv (ix2 (0 : Fin 1) (i 1))) (sc (ix2 (0 : Fin 1) (i 1)))

/-- The payload at an entry of the block whose entry is the matrix's at i and whose column is i's. -/
theorem blk_entry (X : S16384x4096.Idx → EReal) (inv sc : S1x4096.Idx → EReal)
    (x0 : Vec Ideal S256x4096 .f32) (x1 x2 : Vec Ideal S1x4096 .f32) (j : S256x4096.Idx) (i : S16384x4096.Idx)
    (h0 : x0 j = X i) (h1 : x1 (ix2 (0 : Fin 1) (j 1)) = inv (ix2 (0 : Fin 1) (i 1)))
    (h2 : x2 (ix2 (0 : Fin 1) (j 1)) = sc (ix2 (0 : Fin 1) (i 1))) :
    k0_pay1 x0 x1 x2 j = quantMat X inv sc i := by
  obtain ⟨p, q, rfl⟩ : ∃ (p : Fin 256) (q : Fin 4096), j = ix2 p q := ⟨j 0, j 1, eq_ix2 j⟩
  rw [pay_apply, h0]
  unfold quantMat
  exact congrArg₂ (quantK (X i)) h1 h2

/-- The index maps, decided over the grid: at point t the matrix's and the result's block is block (t, 0), the rows'
    block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Blocks

variable (m : (ℓ : Loc nD τ sig) → Buf (Elt Ideal) ℓ)

set_option maxHeartbeats 1600000 in
/-- What point t writes back is block t of the quantized matrix of the three arrays as the region finds them. -/
theorem flushed_eq (c : Dev nD) (t : Fin cfg0.N) :
    (dats m 0 c).flushed 3 t
      = ((cfg0.win 3).blk t).view.read (Elt Ideal) (quantMat (V m c main_v17) (V m c main_v16) (V m c main_v15)) := by
  show (cfg0.win 3).cut (grid0.coords t) ((dats m 0 c).after 3 t) = _
  rw [after0_3]
  unfold out0_3
  rw [View.canon_unit_zero hz]
  simp only [View.ld_unit_zero (S := S256x4096) hz, View.ld_unit_zero (S := S1x4096) hz]
  obtain ⟨e00, e01, e10, e11, e20, e21, e30, e31⟩ := idx_facts t
  funext j
  refine blk_entry (V m c main_v17) (V m c main_v16) (V m c main_v15) (iblk m c 0 t) (iblk m c 1 t) (iblk m c 2 t) j
    (((cfg0.win 3).blk t).view.emb j) ?_ ?_ ?_
  · show V m c main_v17 (((cfg0.win 0).blk t).view.emb j) = V m c main_v17 (((cfg0.win 3).blk t).view.emb j)
    refine congrArg _ (funext fun a => Fin.ext ?_)
    match a with
    | ⟨0, _⟩ => show win0_0.index t (0 : Fin 2) * 256 + 1 * (j 0).val = win0_3.index t (0 : Fin 2) * 256 + 1 * (j 0).val; omega
    | ⟨1, _⟩ => show win0_0.index t (1 : Fin 2) * 4096 + 1 * (j 1).val = win0_3.index t (1 : Fin 2) * 4096 + 1 * (j 1).val; omega
  · show V m c main_v16 (((cfg0.win 1).blk t).view.emb (ix2 (0 : Fin 1) (j 1))) = V m c main_v16 (ix2 (0 : Fin 1) ((((cfg0.win 3).blk t).view.emb j) 1))
    refine congrArg _ (funext fun a => Fin.ext ?_)
    match a with
    | ⟨0, _⟩ => show win0_1.index t (0 : Fin 2) * 1 + 1 * 0 = 0; omega
    | ⟨1, _⟩ => show win0_1.index t (1 : Fin 2) * 4096 + 1 * (j 1).val = win0_3.index t (1 : Fin 2) * 4096 + 1 * (j 1).val; omega
  · show V m c main_v15 (((cfg0.win 2).blk t).view.emb (ix2 (0 : Fin 1) (j 1))) = V m c main_v15 (ix2 (0 : Fin 1) ((((cfg0.win 3).blk t).view.emb j) 1))
    refine congrArg _ (funext fun a => Fin.ext ?_)
    match a with
    | ⟨0, _⟩ => show win0_2.index t (0 : Fin 2) * 1 + 1 * 0 = 0; omega
    | ⟨1, _⟩ => show win0_2.index t (1 : Fin 2) * 4096 + 1 * (j 1).val = win0_3.index t (1 : Fin 2) * 4096 + 1 * (j 1).val; omega

/-- An entry of the matrix is in point t's block iff each coordinate is in the block's range on its axis. -/
theorem mem_blk (t : Fin cfg0.N) (i : S16384x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v18).slice (win0_3.rect t)).set ↔ _
  rw [View.set_slice_whole, Rect.mem_set_unit]
  exact Iff.rfl

/-- Row r of the matrix is in the block of point r / 256: the 64 blocks of 256 rows tile it. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 64 := N_0
  have ht : (i 0).val / 256 < cfg0.N := by rw [hN]; omega
  obtain ⟨-, -, -, -, -, -, e30, e31⟩ := idx_facts ⟨(i 0).val / 256, ht⟩
  refine ⟨⟨(i 0).val / 256, ht⟩, flush0_3 _, ?_⟩
  rw [mem_blk]
  intro a
  match a with
  | ⟨0, _⟩ =>
    show win0_3.index ⟨(i 0).val / 256, ht⟩ (0 : Fin 2) * 256 ≤ (i 0).val ∧ (i 0).val < win0_3.index ⟨(i 0).val / 256, ht⟩ (0 : Fin 2) * 256 + 256
    rw [e30]; show (i 0).val / 256 * 256 ≤ (i 0).val ∧ (i 0).val < (i 0).val / 256 * 256 + 256; omega
  | ⟨1, _⟩ =>
    show win0_3.index ⟨(i 0).val / 256, ht⟩ (1 : Fin 2) * 4096 ≤ (i 1).val ∧ (i 1).val < win0_3.index ⟨(i 0).val / 256, ht⟩ (1 : Fin 2) * 4096 + 4096
    rw [e31]; omega

/-- The result matrix after the run: the quantized matrix. -/
theorem final (c : Dev nD) :
    (dats m 0 c).arrAt 3 cfg0.N = quantMat (V m c main_v17) (V m c main_v16) (V m c main_v15) :=
  (dats m 0 c).arrAt_eq_of_cover 3 (quantMat (V m c main_v17) (V m c main_v16) (V m c main_v15))
    (fun t _ => flushed_eq m c t) covered

/-! ## The reshape after the region -/

/-- The result buffer after the line that follows the region: the quantized matrix read as [4, 4096, 4096]. -/
theorem tail_eq (c : Dev nD) :
    Pipeline.afterTail₀ cfgs (dats m) 0 (V0 m) [hostOps1] c main_v19
      = shapeCast S4x4096x4096 (quantMat (V m c main_v17) (V m c main_v16) (V m c main_v15)) Facts₀.shapeCasts_S16384x4096_S4x4096x4096 := by
  unfold Pipeline.afterTail₀
  show StableHlo.after hostOps1 _ (Proc.devRef .tc main_v19) = _
  after_results
  have e : Pipeline.withArrays (cfgs 0).spec c (V0 m c) (fun w => (dats m 0 c).arrAt w (cfgs 0).N) (Proc.devRef .tc main_v18)
      = quantMat (V m c main_v17) (V m c main_v16) (V m c main_v15) :=
    (Pipeline.withArrays_arr spec0 launch0.win.arr_inj c _ _ 3).trans (final m c)
  rw [e]
  rfl

/-- x read as a matrix, at row 4096 b + s and column k, is x (b, s, k). -/
theorem mat_entry (x : FVec Ideal S4x4096x4096 .f32) (b : Fin 4) (s k : Fin 4096) (hr : b.val * 4096 + s.val < 16384) :
    shapeCast S16384x4096 x Facts₀.shapeCasts_S4x4096x4096_S16384x4096 (ix2 ⟨b.val * 4096 + s.val, hr⟩ k) = x (ix3 b s k) :=
  shapeCast_apply x _ _ _ (by rw [Shape.rowMajor_val_three, Shape.rowMajor_val_two]; rfl)

/-- A matrix read as [4, 4096, 4096], at (b, s, k), is its entry at row 4096 b + s and column k. -/
theorem cube_entry (X : S16384x4096.Idx → EReal) (b : Fin 4) (s k : Fin 4096) (hr : b.val * 4096 + s.val < 16384) :
    shapeCast S4x4096x4096 X Facts₀.shapeCasts_S16384x4096_S4x4096x4096 (ix3 b s k) = X (ix2 ⟨b.val * 4096 + s.val, hr⟩ k) :=
  shapeCast_apply X _ _ _ (by rw [Shape.rowMajor_val_three, Shape.rowMajor_val_two]; rfl)

/-- A vector read as a [1, 4096] row, at (0, q), is its entry q. -/
theorem row_entry (v : FVec Ideal S4096 .f32) (q : Fin 4096) :
    shapeCast S1x4096 v Facts₀.shapeCasts_S4096_S1x4096 (ix2 (0 : Fin 1) q) = v (ix1 q) :=
  shapeCast_a_1a_apply v _ 0 q

/-- The quantized matrix of x as a matrix and of the two vectors as rows, read as [4, 4096, 4096], is the result entry by
    entry. -/
theorem cube_eq (X : S16384x4096.Idx → EReal) (inv' sc' : S1x4096.Idx → EReal) (x : FVec Ideal S4x4096x4096 .f32)
    (scv invv : FVec Ideal S4096 .f32)
    (hX : X = shapeCast S16384x4096 x Facts₀.shapeCasts_S4x4096x4096_S16384x4096)
    (hinv : inv' = shapeCast S1x4096 invv Facts₀.shapeCasts_S4096_S1x4096)
    (hsc : sc' = shapeCast S1x4096 scv Facts₀.shapeCasts_S4096_S1x4096) :
    shapeCast S4x4096x4096 (quantMat X inv' sc') Facts₀.shapeCasts_S16384x4096_S4x4096x4096 = kerOut x scv invv := by
  subst hX hinv hsc
  funext i
  obtain ⟨b, s, k, rfl⟩ : ∃ (b : Fin 4) (s k : Fin 4096), i = ix3 b s k := ⟨i 0, i 1, i 2, eq_ix3 i⟩
  have hr : b.val * 4096 + s.val < 16384 := by omega
  rw [cube_entry _ b s k hr]
  show quantK (shapeCast S16384x4096 x Facts₀.shapeCasts_S4x4096x4096_S16384x4096 (ix2 ⟨b.val * 4096 + s.val, hr⟩ k))
      (shapeCast S1x4096 invv Facts₀.shapeCasts_S4096_S1x4096 (ix2 (0 : Fin 1) k))
      (shapeCast S1x4096 scv Facts₀.shapeCasts_S4096_S1x4096 (ix2 (0 : Fin 1) k))
    = quantK (x (ix3 b s k)) (invv (ix1 k)) (scv (ix1 k))
  rw [mat_entry, row_entry, row_entry]

/-- The result buffer after the run, entry by entry from the argument arrays. -/
theorem out_eq (c : Dev nD) :
    Pipeline.afterTail₀ cfgs (dats m) 0 (V0 m) [hostOps1] c main_v19
      = kerOut (m ((c : Thread nD τ).loc main_arg0))
          (scaleVec (m ((c : Thread nD τ).loc main_arg1)) (m ((c : Thread nD τ).loc main_arg2)) (m ((c : Thread nD τ).loc main_arg3)))
          (invScaleVec (m ((c : Thread nD τ).loc main_arg1)) (m ((c : Thread nD τ).loc main_arg2)) (m ((c : Thread nD τ).loc main_arg3))) :=
  (tail_eq m c).trans (cube_eq _ _ _ _ _ _ (V_x m c) (V_inv m c) (V_scale m c))

end Blocks

/-! ## The run -/

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19)
        = kerOut (m ((c.tc : Thread nD τ).loc main_arg0))
            (scaleVec (m ((c.tc : Thread nD τ).loc main_arg1)) (m ((c.tc : Thread nD τ).loc main_arg2)) (m ((c.tc : Thread nD τ).loc main_arg3)))
            (invScaleVec (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v19 (Pipeline.mem_restRefs_of main_v19 (by decide) (by decide))).trans (out_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.IndexFacts.lean ====
/-
  What the precondition says of the two index vectors, decoded: every word of inv_perm names a channel, and perm read at
  inv_perm k is k — inv_perm is the inverse permutation of perm.
-/
import Idealize.ShloMosaic.Lib.ValueIdx

namespace Cert.Proof

open Idealize.ShloMosaic Idealize.ShloMosaic.ValueIdx

/-- inv_perm's words lie in [0, 4096) and perm ∘ inv_perm is the identity on the 4096 channels. -/
structure IndexFacts (perm ip : IVec (⟨1, ![4096]⟩ : Shape) 32) : Prop where
  range : ∀ k : Fin 4096, (ip (ix1 k)).toNat < 4096
  inverse : ∀ k : Fin 4096, perm (ix1 ⟨(ip (ix1 k)).toNat, range k⟩) = BitVec.ofNat 32 k.val

end Cert.Proof
-- ==== Proof.PreDecode.lean ====
/-
  The precondition read: where the printed predicate holds of the argument arrays, every word of inv_perm lies in
  [0, 4096) and perm read at inv_perm k is k.
-/
import proofs.«400067_j68539088109686_3_alg».proof.Pre_finite_inputs
import proofs.«400067_j68539088109686_3_alg».proof.Proof.Gen.Pre_finite_inputs
import proofs.«400067_j68539088109686_3_alg».proof.Proof.IndexFacts
import Idealize.ShloMosaic.Lib.StableHlo.Predicate
import Idealize.ShloMosaic.Lib.ReduceAll

noncomputable section

namespace Cert.Proof

open Idealize.ShloMosaic Idealize.ShloMosaic.ValueIdx Cert.Pre_finite_inputs Cert.Pre_finite_inputs.Gen

variable {F : FTy → Type} [FloatOps F]

namespace PreDecode

/-- The rank-0 shape has one index. -/
instance subsingleton_S_Idx : Subsingleton S_.Idx := ⟨fun a b => funext fun d => d.elim0⟩

/-- A word in [0, 4096) signed is below 4096 unsigned. -/
theorem toNat_lt_of_signed (w : BitVec 32) (h0 : IntOp.cmpi .sge w (0#32) = 1#1) (h1 : IntOp.cmpi .slt w (4096#32) = 1#1) :
    w.toNat < 4096 := by
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

/-- A small word is not negative: the signed compare with zero is 0. -/
theorem slt_zero_of_small (w : BitVec 32) (hw : w.toNat < 4096) : IntOp.cmpi .slt w (0#32) = 0#1 := by
  have hti : w.toInt = w.toNat := StableHlo.Predicate.toInt_eq_toNat_of_lt (by omega)
  have h0 : (0#32 : BitVec 32).toInt = 0 := by decide
  unfold IntOp.cmpi
  simp only [BitVec.slt, hti, h0]
  have : ¬ ((w.toNat : Int) < 0) := by omega
  simp [this]

/-- The rank-1 index at k, in the two spellings. -/
theorem ix1_eq_ofFin (k : Fin 4096) : (ix1 k : S4096.Idx) = Shape.Idx.ofFin k := Shape.Idx.eq_ofFin (ix1 k)

end PreDecode

open PreDecode

theorem indexFacts_of_pre (x : FVec F S4x4096x4096 .f32) (gs : FVec F S64 .f32) (perm ip : IVec S4096 32)
    (h : Cert.Pre_finite_inputs.fn (F := F) x gs perm ip = fun _ => 1#1) : IndexFacts perm ip := by
  have e := congrFun h ValueIdx.ix0
  unfold Cert.Pre_finite_inputs.fn Cert.Pre_finite_inputs.fn_part1 at e
  dsimp only at e
  have hand : ∀ (a b : IVec S_ 1), andi a b ix0 = IntOp.andi (a ix0) (b ix0) := fun _ _ => rfl
  simp only [hand, IntOp.andi_eq_one] at e
  obtain ⟨⟨⟨_, _⟩, h3⟩, h4⟩ := e
  -- the third conjunct at k: 0 ≤ inv_perm k < 4096 as signed words
  have hr : ∀ k : Fin 4096, (ip (ix1 k)).toNat < 4096 := fun k => by
    have e3 := Host.reduce_andi_all _ _ _ _ ix0 h3 (ix1 k)
    have e3' : IntOp.andi (IntOp.cmpi .sge (ip (ix1 k)) 0#32) (IntOp.cmpi .slt (ip (ix1 k)) 4096#32) = 1#1 := e3
    obtain ⟨a, b⟩ := IntOp.andi_eq_one.1 e3'
    exact toNat_lt_of_signed _ a b
  refine ⟨hr, fun k => ?_⟩
  have hw := hr k
  -- the fourth conjunct at k: the take of perm at the wrapped inv_perm k equals k
  have e4 := StableHlo.Predicate.cmpi_eq_iff.1 (Host.reduce_andi_all _ _ _ _ ix0 h4 (ix1 k))
  rw [ix1_eq_ofFin k, StableHlo.Predicate.gather_take _ rfl rfl rfl rfl _ _ k (by decide), StableHlo.Predicate.iota_apply] at e4
  rw [← e4, ix1_eq_ofFin]
  refine congrArg perm (congrArg Shape.Idx.ofFin (Fin.ext ?_))
  -- the start index is inv_perm k itself: not negative, so not wrapped; below 4096, so not clamped
  dsimp only
  rw [StableHlo.Predicate.bcast_col1, ← ix1_eq_ofFin k]
  show (ip (ix1 k)).toNat = min (Scalar.select (IntOp.cmpi .slt (ip (ix1 k)) 0#32) _ (ip (ix1 k))).toInt.toNat (4096 - 1)
  rw [slt_zero_of_small _ hw, ValueIdx.select_zero, StableHlo.Predicate.toInt_eq_toNat_of_lt (by omega)]
  simp only [Int.toNat_natCast]
  omega

end Cert.Proof

end
-- ==== Proof.Law.lean ====
/-
  The one arithmetic law between the two programs, on the extended reals. The kernel multiplies an entry by the
  reciprocal 1 / s of its channel's scale, the reference divides the entry by s; both then round to the nearest integer,
  clip to [-127, 127] and multiply by s. Off s = 0 the quotient a / s is the product a · s⁻¹ and 1 / s is s⁻¹, so the two
  agree before the rounding. At s = 0 they differ before the clip (the reference's a / 0 is an infinity of a's sign, the
  kernel's a · (1 / 0) is a · ⊤), but the clip leaves both sides finite and the last factor s = 0 makes both results 0.
  No finiteness of a or s is used.
-/
import Idealize.ShloMosaic.PureOps.Ideal

noncomputable section

namespace Cert.Proof.Law

open Idealize.ShloMosaic

/-- The pattern of 1.0 denotes 1. -/
theorem ofBits_one : Ideal.ofBits .f32 0x3F800000#32 = 1 := by
  simp [Ideal.ofBits, Ideal.ieee, -EReal.coe_mul]; norm_num

/-- The pattern of 127.0 denotes 127. -/
theorem ofBits_127 : Ideal.ofBits .f32 0x42FE0000#32 = ((127 : ℝ) : EReal) := by
  simp [Ideal.ofBits, Ideal.ieee, -EReal.coe_mul]; norm_num

/-- The pattern of -127.0 denotes -127. -/
theorem ofBits_neg127 : Ideal.ofBits .f32 0xC2FE0000#32 = ((-127 : ℝ) : EReal) := by
  simp [Ideal.ofBits, Ideal.ieee, -EReal.coe_mul]; norm_num

/-- The integer 127 converted is 127. -/
theorem toInt_127 : (((127#32 : BitVec 32).toInt : ℝ) : EReal) = ((127 : ℝ) : EReal) := by
  have : (127#32 : BitVec 32).toInt = 127 := by decide
  rw [this]; norm_num

/-- The integer -127 (as a 32-bit word) converted is -127. -/
theorem toInt_neg127 : (((4294967169#32 : BitVec 32).toInt : ℝ) : EReal) = ((-127 : ℝ) : EReal) := by
  have : (4294967169#32 : BitVec 32).toInt = -127 := by decide
  rw [this]; norm_num

/-- Quantize-dequantize as the reference spells it: a / s rounded, clipped, times s. -/
def refQ (a s : EReal) : EReal :=
  min ((127 : ℝ) : EReal) (max ((-127 : ℝ) : EReal) (Ideal.liftRound Ideal.roundHalfEven (Ideal.div a s))) * s

/-- The kernel's a · (1 / s), rounded, clipped, times s, is the reference's a / s, rounded, clipped, times s. -/
theorem quant_law (a s : EReal) :
    min (Ideal.ofBits .f32 0x42FE0000#32) (max (Ideal.ofBits .f32 0xC2FE0000#32)
        (Ideal.liftRound Ideal.roundHalfEven (a * Ideal.div (Ideal.ofBits .f32 0x3F800000#32) s))) * s
      = refQ a s := by
  unfold refQ
  rw [ofBits_127, ofBits_neg127, ofBits_one]
  by_cases hs : s = 0
  · subst hs; rw [mul_zero, mul_zero]
  · have h1 : Ideal.div 1 s = s⁻¹ := by rw [Ideal.div, if_neg hs, one_mul]
    have h2 : Ideal.div a s = a * s⁻¹ := by rw [Ideal.div, if_neg hs]
    rw [h1, h2]

end Cert.Proof.Law

end
-- ==== Proof.LibLastGather.lean ====
/-
  A gather along the LAST axis read at an entry, and a reduction by `and` read at one result index.

  `jnp.take(x, idx, axis=-1)` for an operand `x : [A, B, N]` and an integer vector `idx : [R]` lowers to
  `stablehlo.gather` with the start indices as an `[R, 1]` column (index vector on axis 1), the last operand axis
  collapsed and named by the start index map, and the two leading operand axes offset axes taken whole.  Result entry
  `(a, b, r)` is then operand entry `(a, b, idx[r, 0])`, the index read signed and clamped into `[0, N − 1]`
  (StableHLO clamps every start index so that the slice fits).

  A `stablehlo.reduce` by `and` from 1 is 1 at a result index as soon as every operand bit that reduces into that
  index is 1 (the other bits do not matter).
-/
import Idealize.ShloMosaic.Lib.ValueIdx
import Idealize.ShloMosaic.PureOps.Reduce

noncomputable section

namespace Cert.LibLastGather

open Idealize.ShloMosaic Idealize.ShloMosaic.ValueIdx

variable {α : Type}

/-- The dimension numbers of a last-axis gather out of `[A, B, N]` by start indices `[R, 1]`. -/
abbrev lastDims3 (A B N R : Nat)
    (wf : GatherDims.WF ⟨3, ![A, B, N]⟩ ⟨2, ![R, 1]⟩ ⟨3, ![A, B, R]⟩ [0, 1] [2] [] [2] [] 1 ![A, B, 1]) :
    GatherDims ⟨3, ![A, B, N]⟩ ⟨2, ![R, 1]⟩ ⟨3, ![A, B, R]⟩ where
  offsetDims := [0, 1]
  collapsedSliceDims := [2]
  operandBatchingDims := []
  startIndicesBatchingDims := []
  startIndexMap := [2]
  indexVectorDim := 1
  sliceSizes := ![A, B, 1]
  wf := wf

/-- Result entry `(a, b, r)` of the last-axis gather is operand entry `(a, b, clamp idx[r, 0])`. -/
theorem lastGather3_apply {A B N R w : Nat} (hN : 0 < N)
    (wf : GatherDims.WF ⟨3, ![A, B, N]⟩ ⟨2, ![R, 1]⟩ ⟨3, ![A, B, R]⟩ [0, 1] [2] [] [2] [] 1 ![A, B, 1])
    (x : (⟨3, ![A, B, N]⟩ : Shape).Idx → α) (idx : IVec ⟨2, ![R, 1]⟩ w) (a : Fin A) (b : Fin B) (r : Fin R) :
    Host.gather (lastDims3 A B N R wf) x idx (ix3 a b r)
      = x (ix3 a b ⟨min (idx (ix2 r (0 : Fin 1))).toInt.toNat (N - 1), by omega⟩) := by
  unfold Host.gather
  congr 1
  funext ax
  refine Fin.ext ?_
  show (lastDims3 A B N R wf).start (ix3 a b r) idx ax + (lastDims3 A B N R wf).batchCoord (ix3 a b r) ax
    + (lastDims3 A B N R wf).offCoord (ix3 a b r) ax = _
  rw [GatherDims.batchCoord_eq_zero _ _ _ List.not_mem_nil, Nat.add_zero]
  match ax with
  | ⟨2, _⟩ =>
    rw [GatherDims.offCoord_eq_zero _ _ _ (fun h => ((GatherDims.mem_sKept _ _).mp h).1 (List.mem_singleton.mpr rfl)),
      Nat.add_zero]
    unfold GatherDims.start
    rw [dif_pos (show (⟨2, by decide⟩ : Fin 3) ∈ (lastDims3 A B N R wf).startIndexMap from List.mem_singleton.mpr rfl)]
    have hsi : (lastDims3 A B N R wf).siIdx (ix3 a b r) ⟨List.idxOf (⟨2, by decide⟩ : Fin 3) (lastDims3 A B N R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl
  | ⟨0, _⟩ =>
    unfold GatherDims.start
    rw [dif_neg (fun h => absurd (congrArg Fin.val (List.mem_singleton.mp h)) (by simp)), Nat.zero_add]
    rfl
  | ⟨1, _⟩ =>
    unfold GatherDims.start
    rw [dif_neg (fun h => absurd (congrArg Fin.val (List.mem_singleton.mp h)) (by simp)), Nat.zero_add]
    rfl

/-- A left fold by `and` from 1 over bits that are all 1 is 1. -/
theorem foldl_andi_of_all {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_of_all f l fun n hn => h n (List.mem_cons_of_mem _ hn)

/-- A reduction by `and` from 1 is 1 at `j` when every operand bit that reduces into `j` is 1. -/
theorem reduce_andi_at {s t u : Shape} {axes : List (Fin s.rank)} (x : s.Idx → BitVec 1) (init : u.Idx → BitVec 1)
    (h : s.ReducesTo axes t) (hu : 0 < u.numel) (j : t.Idx) (hx : ∀ i, h.drop i = j → x i = 1#1)
    (hinit : init (Shape.Idx.first hu) = 1#1) :
    Host.reduce IntOp.andi x init h hu j = 1#1 := by
  rw [Host.reduce_eq_foldl, hinit]
  refine foldl_andi_of_all x _ fun n hn => hx n ?_
  have := (List.mem_filter.1 hn).2
  simpa using this

end Cert.LibLastGather

end
-- ==== Proof.RefRead.lean ====
/-
  The reference's result read at an entry, when inv_perm is the inverse permutation of perm.

  The last operation takes along the channel axis at inv_perm: entry (b, s, k) is the dequantized array at channel
  j = inv_perm k (in range, so the take neither wraps nor fills).  There the scale is the group scale at j / 64 (each group
  scale repeated 64 times), and the quantized entry is the first take's entry (b, s, j), that is x at channel perm j = k
  (again in range).  So entry (b, s, k) is x (b, s, k) divided by the group scale at inv_perm k / 64, rounded, clipped to
  [-127, 127], times that scale.
-/
import proofs.«400067_j68539088109686_3_alg».proof.Proof.RefTerm
import proofs.«400067_j68539088109686_3_alg».proof.Proof.Gen.ReferenceIdeal
import proofs.«400067_j68539088109686_3_alg».proof.Proof.IndexFacts
import proofs.«400067_j68539088109686_3_alg».proof.Proof.Law
import proofs.«400067_j68539088109686_3_alg».proof.Proof.LibLastGather
import Idealize.ShloMosaic.Lib.StableHlo.Predicate
import Idealize.ShloMosaic.Lib.Pipeline.Value
import Idealize.ShloMosaic.Lib.ValueLayout

noncomputable section

namespace Cert.ReferenceIdeal.Hand

open Cert.ReferenceIdeal Cert.ReferenceIdeal.Gen Idealize.ShloMosaic Idealize.ShloMosaic.ValueIdx Cert.Proof
open Idealize.ShloMosaic.StableHlo.Predicate Cert.LibLastGather

variable {F : FTy → Type} [FloatOps F]

/-- The start column at position j is the index itself when the index is not negative. -/
theorem startCol_apply (idx : IVec S4096 32) (j : Fin 4096) (hj : (idx (ix1 j)).toNat < 2 ^ 31) :
    startCol idx (ix2 j (0 : Fin 1)) = idx (ix1 j) := by
  unfold startCol
  rw [broadcastInDim_apply _ _ _ (ix2 j (0 : Fin 1)) (ix1 j) (fun a => by
    match a with
    | ⟨0, _⟩ => rfl)]
  have h0 : IntOp.cmpi .slt (idx (ix1 j)) 0#32 = 0#1 := eq_zero_of_ne_one fun e => by
    have := (slt_iff_toNat hj (by decide)).1 e
    simp at this
  show Scalar.select (IntOp.cmpi .slt (idx (ix1 j)) 0#32) (IntOp.addi (idx (ix1 j)) 4096#32) (idx (ix1 j)) = idx (ix1 j)
  rw [h0, select_zero]

/-- The in-range bit at position j is set when the column's word there lies below 4096. -/
theorem inRange_apply (col : IVec S4096x1 32) (j : Fin 4096) (hj : (col (ix2 j (0 : Fin 1))).toNat < 4096) :
    inRange col (ix1 j) = 1#1 := by
  unfold inRange
  refine reduce_andi_at _ _ _ _ _ (fun i hi => ?_) rfl
  have hi0 : i = ix2 j (0 : Fin 1) := by
    rw [eq_ix2 i]
    have h0 : (i 0).val = j.val := by
      have e := Shape.ReducesTo.drop_apply_val_of_eq (Facts₀.reducesTo_S4096x1_S4096_d1) i (0 : Fin S4096.rank) (0 : Fin S4096x1.rank)
      rw [hi] at e
      exact e.symm
    have h1 : (i 1).val = 0 := by
      have : (i 1).val < 1 := (i 1).isLt
      omega
    congr 1
    · exact Fin.ext h0
    · exact Fin.ext h1
  subst hi0
  show IntOp.andi (IntOp.cmpi .sge (col (ix2 j (0 : Fin 1))) 0#32) (IntOp.cmpi .sle (col (ix2 j (0 : Fin 1))) 4095#32) = 1#1
  rw [(sge_iff_toNat (by omega) (by decide)).2 (by simp), (sle_iff_toNat (by omega) (by decide)).2 (by simp; omega)]
  decide

/-- The filling take along the last axis, at a position whose index lies in [0, 4096): the operand's entry at that index. -/
theorem takeLast_apply (a : FVec F S4x4096x4096 .f32) (idx : IVec S4096 32) (b : Fin 4) (s j : Fin 4096)
    (hj : (idx (ix1 j)).toNat < 4096) :
    takeLast a idx (ix3 b s j) = a (ix3 b s ⟨(idx (ix1 j)).toNat, hj⟩) := by
  have hc : startCol idx (ix2 j (0 : Fin 1)) = idx (ix1 j) := startCol_apply idx j (by omega)
  unfold takeLast
  rw [select_apply, broadcastInDim_apply _ _ _ (ix3 b s j) (ix1 j) (fun a => by
    match a with
    | ⟨0, _⟩ => rfl), inRange_apply _ j (by rw [hc]; exact hj), select_one]
  refine (lastGather3_apply (N := 4096) (by decide) _ a (startCol idx) b s j).trans ?_
  congr 2
  refine Fin.ext ?_
  show min (startCol idx (ix2 j (0 : Fin 1))).toInt.toNat (4096 - 1) = (idx (ix1 j)).toNat
  rw [hc, toInt_eq_toNat_of_lt (by omega)]
  simp only [Int.toNat_natCast]
  omega

/-- The per-channel scale at channel j is the group scale at j / 64. -/
theorem chanScale_apply (gs : FVec F S64 .f32) (j : Fin 4096) :
    chanScale gs (ix1 j) = gs (ix1 ⟨j.val / 64, by have := j.isLt; omega⟩) := by
  unfold chanScale
  rw [shapeCast_apply _ _ (ix1 j) (ix2 (⟨j.val / 64, by have := j.isLt; omega⟩ : Fin 64) (⟨j.val % 64, by omega⟩ : Fin 64)) (by
    rw [Shape.rowMajor_val_two, Shape.rowMajor_val_one]
    show j.val / 64 * 64 + j.val % 64 = j.val
    omega)]
  exact broadcastInDim_apply _ _ _ _ (ix1 _) (fun a => by
    match a with
    | ⟨0, _⟩ => rfl)

/-- A per-channel vector laid along the last axis reads, at (b, s, j), the vector at j. -/
theorem spread_apply (v : FVec F S4096 .f32) (b : Fin 4) (s j : Fin 4096) : spread v (ix3 b s j) = v (ix1 j) := by
  unfold spread
  rw [broadcastInDim_apply _ _ _ (ix3 b s j) (ix3 (0 : Fin 1) (0 : Fin 1) j) (fun a => by
    match a with
    | ⟨0, _⟩ => rfl
    | ⟨1, _⟩ => rfl
    | ⟨2, _⟩ => rfl)]
  exact broadcastInDim_apply _ _ _ _ (ix1 j) (fun a => by
    match a with
    | ⟨0, _⟩ => rfl)

/-- The clip at an entry, on the extended reals. -/
theorem clip127_apply (y : FVec Ideal S4x4096x4096 .f32) (i : S4x4096x4096.Idx) :
    clip127 y i = min ((127 : ℝ) : EReal) (max ((-127 : ℝ) : EReal) (y i)) := by
  show min ((((127#32 : BitVec 32).toInt : ℝ)) : EReal) (max ((((4294967169#32 : BitVec 32).toInt : ℝ)) : EReal) (y i)) = _
  rw [Law.toInt_127, Law.toInt_neg127]

/-- The reference's result at (b, s, k): x (b, s, k) quantized and dequantized by the group scale at inv_perm k / 64. -/
theorem refOut_apply (x : FVec Ideal S4x4096x4096 .f32) (gs : FVec Ideal S64 .f32) (perm ip : IVec S4096 32)
    (h : IndexFacts perm ip) (b : Fin 4) (s k : Fin 4096) :
    refOut x gs perm ip (ix3 b s k)
      = Law.refQ (x (ix3 b s k)) (gs (ix1 ⟨(ip (ix1 k)).toNat / 64, by have := h.range k; omega⟩)) := by
  unfold refOut
  rw [takeLast_apply _ ip b s k (h.range k)]
  have hp : perm (ix1 ⟨(ip (ix1 k)).toNat, h.range k⟩) = BitVec.ofNat 32 k.val := h.inverse k
  have hpn : (perm (ix1 ⟨(ip (ix1 k)).toNat, h.range k⟩)).toNat = k.val := by
    rw [hp, BitVec.toNat_ofNat]
    have := k.isLt
    omega
  have hx : takeLast x perm (ix3 b s ⟨(ip (ix1 k)).toNat, h.range k⟩) = x (ix3 b s k) := by
    rw [takeLast_apply x perm b s ⟨(ip (ix1 k)).toNat, h.range k⟩ (by rw [hpn]; exact k.isLt)]
    congr 2
    exact Fin.ext hpn
  rw [mulf_apply, clip127_apply, spread_apply, chanScale_apply]
  show min ((127 : ℝ) : EReal) (max ((-127 : ℝ) : EReal) (Ideal.liftRound Ideal.roundHalfEven
      (Ideal.div (takeLast x perm (ix3 b s ⟨(ip (ix1 k)).toNat, h.range k⟩))
        (spread (chanScale gs) (ix3 b s ⟨(ip (ix1 k)).toNat, h.range k⟩))))) * _ = _
  rw [hx, spread_apply, chanScale_apply]
  rfl

end Cert.ReferenceIdeal.Hand

end
-- ==== Proof.KerInt.lean ====
/-
  The kernel's per-channel scale read at a channel, when inv_perm is the inverse permutation of perm: the validity bit is
  set, inv_perm k // 64 is the quotient of a word below 4096, the filling take of the group scales is in range, so the
  scale at channel k is the group scale at inv_perm k / 64, and the reciprocal is one divided by it.
-/
import proofs.«400067_j68539088109686_3_alg».proof.Proof.KerTerm
import proofs.«400067_j68539088109686_3_alg».proof.Proof.Gen.KernelIdeal
import proofs.«400067_j68539088109686_3_alg».proof.Proof.IndexFacts
import Idealize.ShloMosaic.Lib.StableHlo.Predicate
import Idealize.ShloMosaic.Lib.Pipeline.Value

noncomputable section

namespace Cert.KernelIdeal.Hand

open Cert.KernelIdeal Cert.KernelIdeal.Gen Idealize.ShloMosaic Idealize.ShloMosaic.ValueIdx Cert.Proof
open Idealize.ShloMosaic.StableHlo.Predicate

variable {F : FTy → Type} [FloatOps F]

/-- A word below 4096 divided by 64 is below 64. -/
theorem group_lt (w : BitVec 32) (h : w.toNat < 4096) : w.toNat / 64 < 64 := by omega

namespace KerInt

/-! ## Indices: the two spellings of a vector position and of a column position -/

/-- The vector position at a coordinate, in either spelling. -/
theorem ofFin_eq_ix1 {n : Nat} (k : Fin n) : Shape.Idx.ofFin k = ix1 k := by
  funext d; match d with | ⟨0, _⟩ => exact Fin.ext rfl

/-- Row k of a one-column rectangle, in either spelling. -/
theorem ixP_eq_ix2 {n : Nat} (k : Fin n) : ixP k = ix2 k (0 : Fin 1) := by
  funext d; match d with | ⟨0, _⟩ => rfl | ⟨1, _⟩ => rfl

/-! ## Words -/

/-- A word below 2³¹ is not negative. -/
theorem slt_zero_of_small (w : BitVec 32) (h : w.toNat < 2 ^ 31) : IntOp.cmpi .slt w 0#32 = 0#1 := by
  refine eq_zero_of_ne_one fun e => ?_
  have := (slt_iff_toNat h (by decide)).1 e
  simp at this

/-- The wrap of negative indices leaves a word below 2³¹ alone. -/
theorem wrap_small (w n : BitVec 32) (h : w.toNat < 2 ^ 31) :
    Scalar.select (IntOp.cmpi .slt w 0#32) (IntOp.addi w n) w = w := by
  rw [slt_zero_of_small w h, select_zero]

/-- The sign of a word as the sign operation computes it. -/
abbrev sgn (x : BitVec 32) : BitVec 32 := if x = 0 then 0 else if x.msb then -1 else 1

/-- The truncating quotient by 64 of a word below 2³¹ is the quotient of its value. -/
theorem divsi_small (w : BitVec 32) (h : w.toNat < 2 ^ 31) : IntOp.divsi .host w 64#32 = BitVec.ofNat 32 (w.toNat / 64) := by
  have hcorner : ¬ IntOp.SDivCorner w 64#32 := by
    intro hc; rcases hc with hc | ⟨_, hc⟩ <;> exact absurd hc (by decide)
  have hm : w.msb = false := BitVec.msb_eq_false_iff_two_mul_lt.mpr (by omega)
  apply BitVec.eq_of_toNat_eq
  simp only [IntOp.divsi, if_neg hcorner, BitVec.sdiv_eq, hm, show (64#32 : BitVec 32).msb = false from by decide, BitVec.udiv_eq,
    BitVec.toNat_udiv, BitVec.toNat_ofNat, Nat.reducePow, Nat.reduceMod]
  omega

/-- The floor-division idiom on a word below 2³¹: the signs differ only at zero, where the remainder is zero, so no
    correction is made and the result is the quotient of the value. -/
theorem floorDiv_word (w : BitVec 32) (h : w.toNat < 2 ^ 31) :
    Scalar.select
      (IntOp.andi (IntOp.cmpi .ne (sgn w) (sgn 64#32)) (IntOp.cmpi .ne (IntOp.remsi .host w 64#32) 0#32))
      (IntOp.subi (IntOp.divsi .host w 64#32) 1#32) (IntOp.divsi .host w 64#32)
      = BitVec.ofNat 32 (w.toNat / 64) := by
  have hand : IntOp.andi (IntOp.cmpi .ne (sgn w) (sgn 64#32)) (IntOp.cmpi .ne (IntOp.remsi .host w 64#32) 0#32) = 0#1 := by
    by_cases h0 : w = 0
    · subst h0; decide
    · have hm : w.msb = false := BitVec.msb_eq_false_iff_two_mul_lt.mpr (by omega)
      have hs : sgn w = sgn 64#32 := by
        show (if w = 0 then (0 : BitVec 32) else if w.msb then -1 else 1) = _
        rw [if_neg h0, hm]; decide
      rw [hs]
      have : IntOp.cmpi .ne (sgn 64#32) (sgn 64#32) = 0#1 := by decide
      rw [this]
      show (0#1 &&& _) = 0#1
      simp
  rw [hand, select_zero, divsi_small w h]

/-- A left fold by `and` from 1 over bits that are all 1 is 1. -/
theorem foldl_andi_of_all {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_of_all f l fun n hn => h n (List.mem_cons_of_mem _ hn)

/-- A reduction by `and` from 1 of a mask whose bits are all 1 is 1 everywhere. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_of_all x _ fun n _ => hx n

/-! ## Reads -/

/-- A vector with its negative entries wrapped by `n`, laid as a column, reads at row k the vector's entry when that
    entry is below 2³¹. -/
theorem wrapColumn_apply (hb : S4096.BroadcastsInDim S4096x1 (![0] : Fin 1 → Fin S4096x1.rank))
    (hs : S_.BroadcastsInDim S4096 (![] : Fin 0 → Fin S4096.rank)) (v : IVec S4096 32) (n : BitVec 32) (k : Fin 4096)
    (h : (v (ix1 k)).toNat < 2 ^ 31) :
    broadcastInDim S4096x1 ![0] hb
      (select (cmpi .slt v (broadcastInDim S4096 ![] hs (constantI S_ 32 0#32)))
        (addi v (broadcastInDim S4096 ![] hs (constantI S_ 32 n))) v) (ix2 k (0 : Fin 1)) = v (ix1 k) := by
  refine (broadcastInDim_apply _ hb _ (ix2 k (0 : Fin 1)) (ix1 k) (fun a => ?_)).trans ?_
  · match a with
    | ⟨0, _⟩ => rfl
  · show Scalar.select (IntOp.cmpi .slt (v (ix1 k)) 0#32) (IntOp.addi (v (ix1 k)) n) (v (ix1 k)) = _
    exact wrap_small _ _ h

/-- The take from a rank-1 table of N entries at a column of start indices, read at position k, is the table at the
    start index when that index is below N. -/
theorem take_apply {α : Type} {N : Nat} (d : GatherDims ⟨1, ![N]⟩ S4096x1 S4096)
    (hcoll : d.collapsedSliceDims = [0]) (hob : d.operandBatchingDims = [])
    (hsim : d.startIndexMap = [0]) (hivd : d.indexVectorDim = 1)
    (x : (⟨1, ![N]⟩ : Shape).Idx → α) (col : IVec S4096x1 32) (k : Fin 4096)
    (hc : (col (ix2 k (0 : Fin 1))).toNat < N) (hN : N ≤ 2 ^ 31) :
    Host.gather d x col (ix1 k) = x (ix1 ⟨(col (ix2 k (0 : Fin 1))).toNat, hc⟩) := by
  have e := gather_take d hcoll hob hsim hivd x col k (by omega)
  rw [ofFin_eq_ix1] at e
  rw [e, ofFin_eq_ix1]
  refine congrArg x (congrArg ix1 (Fin.ext ?_))
  show min (col (ixP k)).toInt.toNat (N - 1) = (col (ix2 k (0 : Fin 1))).toNat
  rw [ixP_eq_ix2, toInt_eq_toNat_of_lt (by omega)]
  omega

end KerInt

open KerInt

/-! ## The kernel's host terms at a channel -/

/-- The validity bit is set: perm gathered at inv_perm is the position at every channel. -/
theorem valid_eq_one (perm ip : IVec S4096 32) (h : IndexFacts perm ip) (j : S_.Idx) : valid perm ip j = 1#1 := by
  unfold valid
  refine reduce_andi_of_all _ _ _ _ (fun i => ?_) rfl j
  obtain ⟨k, rfl⟩ : ∃ k : Fin 4096, i = ix1 k := ⟨i 0, eq_ix1 i⟩
  show IntOp.cmpi .eq (Host.gather gather_S4096_S4096x1_S4096_n_0_n_n_0_1_1 perm (wrapCol ip) (ix1 k)) (BitVec.ofNat 32 k.val) = 1#1
  have hw : wrapCol ip (ix2 k (0 : Fin 1)) = ip (ix1 k) := wrapColumn_apply _ _ ip _ k (by have := h.range k; omega)
  have hc : (wrapCol ip (ix2 k (0 : Fin 1))).toNat < 4096 := by rw [hw]; exact h.range k
  rw [cmpi_eq_iff, take_apply _ rfl rfl rfl rfl perm (wrapCol ip) k hc (by decide)]
  rw [← h.inverse k]
  exact congrArg perm (congrArg ix1 (Fin.ext (congrArg BitVec.toNat hw)))

/-- inv_perm // 64 at a channel whose word is below 2³¹ is the quotient of the word's value. -/
theorem floorDiv64_apply (ip : IVec S4096 32) (k : Fin 4096) (h : (ip (ix1 k)).toNat < 2 ^ 31) :
    floorDiv64 ip (ix1 k) = BitVec.ofNat 32 ((ip (ix1 k)).toNat / 64) := by
  refine Eq.trans ?_ (floorDiv_word (ip (ix1 k)) h)
  rfl

/-- The filling take of the group scales at group indices that are all below 64 reads the group scale at the index. -/
theorem takeGs_apply (gs : FVec F S64 .f32) (g : IVec S4096 32) (hg : ∀ k : Fin 4096, (g (ix1 k)).toNat < 64) (k : Fin 4096) :
    takeGs gs g (ix1 k) = gs (ix1 ⟨(g (ix1 k)).toNat, hg k⟩) := by
  have hcol : ∀ a : Fin 4096, groupCol g (ix2 a (0 : Fin 1)) = g (ix1 a) := fun a =>
    wrapColumn_apply _ _ g _ a (by have := hg a; omega)
  have hok : groupOk (groupCol g) (ix1 k) = 1#1 := by
    unfold groupOk
    refine reduce_andi_of_all _ _ _ _ (fun i => ?_) rfl _
    obtain ⟨a, b, rfl⟩ : ∃ (a : Fin 4096) (b : Fin 1), i = ix2 a b := ⟨i 0, i 1, eq_ix2 i⟩
    obtain rfl : b = 0 := Subsingleton.elim _ _
    show IntOp.andi (IntOp.cmpi .sge (groupCol g (ix2 a (0 : Fin 1))) 0#32) (IntOp.cmpi .sle (groupCol g (ix2 a (0 : Fin 1))) 63#32) = 1#1
    rw [hcol a]
    have h1 : IntOp.cmpi .sge (g (ix1 a)) 0#32 = 1#1 := (sge_iff_toNat (by have := hg a; omega) (by decide)).2 (by simp)
    have h2 : IntOp.cmpi .sle (g (ix1 a)) 63#32 = 1#1 :=
      (sle_iff_toNat (by have := hg a; omega) (by decide)).2 (by have := hg a; simp; omega)
    rw [h1, h2]; decide
  have hc : (groupCol g (ix2 k (0 : Fin 1))).toNat < 64 := by rw [hcol k]; exact hg k
  unfold takeGs
  rw [select_apply, hok, select_one, take_apply _ rfl rfl rfl rfl gs (groupCol g) k hc (by decide)]
  exact congrArg gs (congrArg ix1 (Fin.ext (congrArg BitVec.toNat (hcol k))))

/-- Channel k's scale is the group scale at inv_perm k / 64. -/
theorem scaleVec_apply (gs : FVec F S64 .f32) (perm ip : IVec S4096 32) (h : IndexFacts perm ip) (k : Fin 4096) :
    scaleVec gs perm ip (ix1 k) = gs (ix1 ⟨(ip (ix1 k)).toNat / 64, group_lt _ (h.range k)⟩) := by
  have hfd : ∀ a : Fin 4096, floorDiv64 ip (ix1 a) = BitVec.ofNat 32 ((ip (ix1 a)).toNat / 64) := fun a =>
    floorDiv64_apply ip a (by have := h.range a; omega)
  have hval : ∀ a : Fin 4096, (floorDiv64 ip (ix1 a)).toNat = (ip (ix1 a)).toNat / 64 := fun a => by
    rw [hfd a, BitVec.toNat_ofNat]; have := h.range a; omega
  have hg : ∀ a : Fin 4096, (floorDiv64 ip (ix1 a)).toNat < 64 := fun a => by
    rw [hval a]; exact group_lt _ (h.range a)
  have hm : broadcastInDim S4096 ![] Facts₀.bcast_S_S4096 (valid perm ip) (ix1 k) = 1#1 :=
    (bcast_scalar _ Facts₀.h_S_ _ _).trans (valid_eq_one perm ip h _)
  unfold scaleVec
  rw [select_apply, hm, select_one, takeGs_apply gs (floorDiv64 ip) hg k]
  exact congrArg gs (congrArg ix1 (Fin.ext (hval k)))

/-- Channel k's reciprocal scale is one divided by that group scale. -/
theorem invScaleVec_apply (gs : FVec Ideal S64 .f32) (perm ip : IVec S4096 32) (h : IndexFacts perm ip) (k : Fin 4096) :
    invScaleVec gs perm ip (ix1 k)
      = Ideal.div (Ideal.ofBits .f32 0x3F800000#32) (gs (ix1 ⟨(ip (ix1 k)).toNat / 64, group_lt _ (h.range k)⟩)) := by
  show FloatOps.hostDivf (FloatOps.ofBits (F := Ideal) .f32 0x3F800000#32) (scaleVec gs perm ip (ix1 k)) = _
  rw [Ideal.hostDivf_def, Ideal.ofBits_def, scaleVec_apply gs perm ip h k]

end Cert.KernelIdeal.Hand

end
-- ==== Proof.Bridge.lean ====
/-
  The two programs' results are one function of the argument arrays, when inv_perm is the inverse permutation of perm:
  entry (b, s, k) of the reference is x (b, s, k) divided by the group scale g at inv_perm k / 64, rounded, clipped and
  multiplied by g; entry (b, s, k) of the kernel is x (b, s, k) times the reciprocal 1 / g, rounded, clipped and multiplied
  by g, with the same g because the kernel's per-channel scale at k is the group scale at inv_perm k / 64. The law on the
  extended reals between the two spellings joins them.
-/
import proofs.«400067_j68539088109686_3_alg».proof.Proof.RefRead
import proofs.«400067_j68539088109686_3_alg».proof.Proof.KerInt
import proofs.«400067_j68539088109686_3_alg».proof.Proof.Law

noncomputable section

namespace Cert.Proof

open Idealize.ShloMosaic Idealize.ShloMosaic.ValueIdx

theorem result_eq (x : FVec Ideal (⟨3, ![4, 4096, 4096]⟩ : Shape) .f32) (gs : FVec Ideal (⟨1, ![64]⟩ : Shape) .f32)
    (perm ip : IVec (⟨1, ![4096]⟩ : Shape) 32) (h : IndexFacts perm ip) :
    Cert.ReferenceIdeal.Hand.refOut x gs perm ip
      = Cert.KernelIdeal.Hand.kerOut x (Cert.KernelIdeal.Hand.scaleVec gs perm ip) (Cert.KernelIdeal.Hand.invScaleVec gs perm ip) := by
  funext i
  obtain ⟨b, s, k, rfl⟩ : ∃ (b : Fin 4) (s k : Fin 4096), i = ix3 b s k := ⟨i 0, i 1, i 2, eq_ix3 i⟩
  rw [Cert.ReferenceIdeal.Hand.refOut_apply x gs perm ip h b s k]
  show _ = Cert.KernelIdeal.Hand.quantK (x (ix3 b s k)) (Cert.KernelIdeal.Hand.invScaleVec gs perm ip (ix1 k))
    (Cert.KernelIdeal.Hand.scaleVec gs perm ip (ix1 k))
  rw [Cert.KernelIdeal.Hand.scaleVec_apply gs perm ip h k, Cert.KernelIdeal.Hand.invScaleVec_apply gs perm ip h k]
  exact (Law.quant_law _ _).symm

end Cert.Proof

end
-- ==== Proof.lean ====
/-
  Per-channel int8 fake quantization after a channel permutation, against the reference that permutes, quantizes by
  group and permutes back.

  The reference gathers the channels of x by perm, divides channel j by the scale of its group j / 64, rounds to the
  nearest integer (ties to even), clips to [-127, 127], multiplies by the same scale, and gathers by inv_perm. The kernel
  never moves x: it computes one scale per ORIGINAL channel k, the group scale at inv_perm k / 64, and its reciprocal,
  and maps x (b, s, k) to clip (round (x · (1 / scale))) · scale; it guards this by a check that perm at inv_perm is
  the identity, and fills the scales with a junk value when the check fails.

  The precondition says that inv_perm's words index channels and that perm at inv_perm k is k (inv_perm is the inverse
  permutation of perm). Under it the check passes, the reference's second gather reads channel j = inv_perm k of the
  dequantized array, whose scale is the group scale at j / 64 and whose quantized entry came from x at channel
  perm j = k; so both programs map x (b, s, k) by the same group scale g, one as (x / g) and one as x · (1 / g) before
  the rounding. On the extended reals these agree off g = 0, and at g = 0 both results are 0 after the clip. Finiteness of
  the inputs is never used.

  The three frames: the kernel's two are the generated class-A frames; the reference has no kernel, and its frame is its
  run with the result dropped. The idealization rewrote nothing, so its preservation claim is trivial.
-/
import proofs.«400067_j68539088109686_3_alg».proof.Defs
import proofs.«400067_j68539088109686_3_alg».proof.Proof.Gen.Kernel
import proofs.«400067_j68539088109686_3_alg».proof.Proof.Gen.Kernel.Frame
import proofs.«400067_j68539088109686_3_alg».proof.Proof.Gen.KernelIdeal
import proofs.«400067_j68539088109686_3_alg».proof.Proof.Gen.KernelIdeal.Frame
import proofs.«400067_j68539088109686_3_alg».proof.Proof.Gen.ReferenceIdeal
import proofs.«400067_j68539088109686_3_alg».proof.Proof.Gen.Pre_finite_inputs
import proofs.«400067_j68539088109686_3_alg».proof.Proof.RefRun
import proofs.«400067_j68539088109686_3_alg».proof.Proof.KerRun
import proofs.«400067_j68539088109686_3_alg».proof.Proof.PreDecode
import proofs.«400067_j68539088109686_3_alg».proof.Proof.Bridge

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.Hand.run (F := Ideal) m ρ)

/-- Both programs run; the kernel's result is its entrywise quantization by the per-channel scales, the reference's its
    composed term, and under the precondition the two are one function of arguments that agree. -/
theorem algebraic : Cert.algebraic_KernelIdeal_ReferenceIdeal := by
  intro m ρ m' ρ' hpre hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2]
  exact result_eq _ _ _ _ (indexFacts_of_pre _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
